-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16 : Shape := ⟨1, ![16]⟩
abbrev S16x8192 : Shape := ⟨2, ![16, 8192]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S16x8192 : S_.BroadcastsInDim S16x8192 (![] : Fin 0 → Fin S16x8192.rank)
  reducesTo_S16x8192_S_d0_1 : S16x8192.ReducesTo [0, 1] S_

variable [Facts]

def fn {F : FTy → Type} [FloatOps F] (main_arg0 : FVec F S16 .f32) (main_arg1 : FVec F S16x8192 .f32) (main_arg2 : FVec F S16x8192 .f32) : IVec S_ 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S16x8192 .f32 := Host.absf main_arg1
  let main_cst_0 : FVec F S_ .f32 := constant S_ .f32 0x7F800000#32
  let main_v5 : FVec F S16x8192 .f32 := broadcastInDim S16x8192 ![] bcast_S_S16x8192 main_cst_0
  let main_v6 : IVec S16x8192 1 := cmpf .olt main_v4 main_v5
  let main_c_1 : IVec S_ 1 := constantI S_ 1 1#1
  let main_v7 : IVec S_ 1 := (fun x v => Host.reduce IntOp.andi x v reducesTo_S16x8192_S_d0_1 h_S_) main_v6 main_c_1
  let main_v8 : IVec S_ 1 := andi main_v3 main_v7
  let main_v9 : FVec F S16x8192 .f32 := Host.absf main_arg2
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_c_3 : IVec S_ 1 := constantI S_ 1 1#1
  let main_v12 : IVec S_ 1 := (fun x v => Host.reduce IntOp.andi x v reducesTo_S16x8192_S_d0_1 h_S_) main_v11 main_c_3
  let main_v13 : IVec S_ 1 := andi main_v8 main_v12
  main_v13
-- ==== Kernel.lean ====
abbrev S16 : Shape := ⟨1, ![16]⟩
abbrev S16x8192 : Shape := ⟨2, ![16, 8192]⟩
abbrev S_ : Shape := ⟨0, ![]⟩
abbrev S16x1 : Shape := ⟨2, ![16, 1]⟩
abbrev S8192x8192 : Shape := ⟨2, ![8192, 8192]⟩
abbrev S16x2048 : Shape := ⟨2, ![16, 2048]⟩
abbrev S2048x2048 : Shape := ⟨2, ![2048, 2048]⟩

abbrev nBuf : Space → Nat
  | .hbm => 23
  | .vmem => 6
  | .smem => 0
  | _ => 0

abbrev bufTy : (tb : Table) → Fin (tcTables nBuf tb) → BufTy
  | .hbm, ⟨0, _⟩ => ⟨S16, .f32⟩
  | .hbm, ⟨1, _⟩ => ⟨S16x8192, .f32⟩
  | .hbm, ⟨2, _⟩ => ⟨S16x8192, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .f32⟩
  | .hbm, ⟨18, _⟩ => ⟨S16x8192, .f32⟩
  | .hbm, ⟨19, _⟩ => ⟨S16x8192, .f32⟩
  | .hbm, ⟨20, _⟩ => ⟨S16x8192, .bf16⟩
  | .hbm, ⟨21, _⟩ => ⟨S16x8192, .bf16⟩
  | .hbm, ⟨22, _⟩ => ⟨S8192x8192, .f32⟩
  | .local _ .vmem, ⟨0, _⟩ => ⟨S16x2048, .bf16⟩
  | .local _ .vmem, ⟨1, _⟩ => ⟨S16x2048, .bf16⟩
  | .local _ .vmem, ⟨2, _⟩ => ⟨S16x2048, .bf16⟩
  | .local _ .vmem, ⟨3, _⟩ => ⟨S16x2048, .bf16⟩
  | .local _ .vmem, ⟨4, _⟩ => ⟨S2048x2048, .f32⟩
  | .local _ .vmem, ⟨5, _⟩ => ⟨S2048x2048, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x1_S16x8192_0_1 : S16x1.BroadcastsInDim S16x8192 (![0, 1] : Fin 2 → Fin S16x8192.rank)
  bitsLt_bf16_f32 : FTy.bits .bf16 < FTy.bits .f32
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S2048x2048_S2048x2048_0_0 : ∀ a, (![0, 0] : Fin 2 → Nat) a + S2048x2048.size a ≤ S2048x2048.size a
  h_S2048x2048 : 0 < S2048x2048.numel
  dot_S16x2048_S16x2048_S2048x2048_0_0_1_1_n_n_wf : DotDims.WF S16x2048 S16x2048 S2048x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048.size a ≤ S16x8192.size a
  hwx0_0 : ∀ i : grid0.Coords, EltTy.bits .bf16 = 32 ∨ (Rect.block (s := S16x8192) S16x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x8192.size a
  hwx0_1 : ∀ i : grid0.Coords, EltTy.bits .bf16 = 32 ∨ (Rect.block (s := S16x8192) S16x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)

variable [Facts₀]

def dot_S16x2048_S16x2048_S2048x2048_0_0_1_1_n_n : DotDims S16x2048 S16x2048 S2048x2048 where
  lhsContracting := [0]
  rhsContracting := [0]
  lhsNonContracting := [1]
  rhsNonContracting := [1]
  lhsBatch := []
  rhsBatch := []
  wf := dot_S16x2048_S16x2048_S2048x2048_0_0_1_1_n_n_wf

abbrev win0_0 : Pipeline.Window sig grid0 :=
  Pipeline.Window.ofSpec (Memref.whole main_v13) S16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16 : Shape := ⟨1, ![16]⟩
abbrev S16x8192 : Shape := ⟨2, ![16, 8192]⟩
abbrev S_ : Shape := ⟨0, ![]⟩
abbrev S16x1 : Shape := ⟨2, ![16, 1]⟩
abbrev S8192x8192 : Shape := ⟨2, ![8192, 8192]⟩

abbrev nBuf : Space → Nat
  | .hbm => 21
  | .vmem => 0
  | .smem => 0
  | _ => 0

abbrev bufTy : (tb : Table) → Fin (tcTables nBuf tb) → BufTy
  | .hbm, ⟨0, _⟩ => ⟨S16, .f32⟩
  | .hbm, ⟨1, _⟩ => ⟨S16x8192, .f32⟩
  | .hbm, ⟨2, _⟩ => ⟨S16x8192, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16x1, .f32⟩
  | .hbm, ⟨18, _⟩ => ⟨S16x8192, .f32⟩
  | .hbm, ⟨19, _⟩ => ⟨S16x8192, .f32⟩
  | .hbm, ⟨20, _⟩ => ⟨S8192x8192, .f32⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x1_S16x8192_0_1 : S16x1.BroadcastsInDim S16x8192 (![0, 1] : Fin 2 → Fin S16x8192.rank)
  dot_S16x8192_S16x8192_S8192x8192_0_0_1_1_n_n_wf : DotDims.WF S16x8192 S16x8192 S8192x8192 [0] [0] [1] [1] [] []

variable [Facts₀]

def dot_S16x8192_S16x8192_S8192x8192_0_0_1_1_n_n : DotDims S16x8192 S16x8192 S8192x8192 where
  lhsContracting := [0]
  rhsContracting := [0]
  lhsNonContracting := [1]
  rhsNonContracting := [1]
  lhsBatch := []
  rhsBatch := []
  wf := dot_S16x8192_S16x8192_S8192x8192_0_0_1_1_n_n_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.OuterSum.lean ====
/-
  The array both programs compute.

  For a `[K, M]` array `A` and a `[K, N]` array `B` the sum of the outer products of their rows,
      W[p, q] = ∑ k : Fin K, A[k, p] * B[k, q],
  is `Aᵀ · B`: the product that contracts axis 0 of both operands. It is stated here index by index
  in the extended reals, with no order of summation and no tiling left in it; a tile of `W` is the
  same sum over the matching column ranges of `A` and `B`.
-/
import proofs.«141386_j25168508355298_1_alg».proof.Proof.LibDot2

noncomputable section

open scoped BigOperators

namespace Cert.OuterSum

open Idealize.ShloMosaic Idealize.ShloMosaic.ValueIdx

/-- `W[p, q] = ∑ k, A[k, p] * B[k, q]`: the sum over the rows `k` of the outer products of row `k`
    of `A` with row `k` of `B`. -/
def outerSum {K M N : Nat} (A : (⟨2, ![K, M]⟩ : Shape).Idx → EReal) (B : (⟨2, ![K, N]⟩ : Shape).Idx → EReal) :
    (⟨2, ![M, N]⟩ : Shape).Idx → EReal :=
  fun i => ∑ k : Fin K, A (ix2 k (i 0)) * B (ix2 k (i 1))

/-- The sum at the index with coordinates `(p, q)`. -/
theorem outerSum_ix2 {K M N : Nat} (A : (⟨2, ![K, M]⟩ : Shape).Idx → EReal) (B : (⟨2, ![K, N]⟩ : Shape).Idx → EReal)
    (p : Fin M) (q : Fin N) : outerSum A B (ix2 p q) = ∑ k : Fin K, A (ix2 k p) * B (ix2 k q) := rfl

end Cert.OuterSum

end
-- ==== Proof.RefOuter.lean ====
/-
  The reference's result is the sum of outer products.

  The reference scales the rows of `v_slow` by the sixteen gains and contracts axis 0 of the scaled
  array with axis 0 of `u_slow` in ONE general dot product. Read at an index `(p, q)` that product is
  `∑ k, (γ·v)[k, p] * u[k, q]`; the operand indices the product reads at the contraction coordinate
  `k` are `(k, p)` and `(k, q)`.
-/
import proofs.«141386_j25168508355298_1_alg».proof.Proof.Gen.ReferenceIdeal.Read
import proofs.«141386_j25168508355298_1_alg».proof.Proof.OuterSum

noncomputable section

open scoped BigOperators

namespace Cert.ReferenceIdeal.RefValue

open Cert.ReferenceIdeal Cert.ReferenceIdeal.Gen Cert.ReferenceIdeal.Read Idealize.ShloMosaic Idealize.ShloMosaic.ValueIdx
open Cert.OuterSum

/-- The left operand is read at row `k`, column `p` (the result's row). -/
theorem lidx_eq (i : S8192x8192.Idx) (k : Fin 16) : lidx_main_v13 i k = ix2 k (i 0) :=
  funext fun a => by match a with | ⟨0, _⟩ => rfl | ⟨1, _⟩ => rfl

/-- The right operand is read at row `k`, column `q` (the result's column). -/
theorem ridx_eq (i : S8192x8192.Idx) (k : Fin 16) : ridx_main_v13 i k = ix2 k (i 1) :=
  funext fun a => by match a with | ⟨0, _⟩ => rfl | ⟨1, _⟩ => rfl

/-- The reference's result array is the sum of outer products of the scaled `v_slow` with `u_slow`. -/
theorem result_outer (x0 : (⟨S16, .f32⟩ : BufTy).Contents (Elt Ideal)) (x1 x2 : (⟨S16x8192, .f32⟩ : BufTy).Contents (Elt Ideal)) :
    val_main_v13 (F := Ideal) x0 x1 x2 = outerSum (val_main_v12 (F := Ideal) x0 x1) x2 := by
  funext i
  rw [val_main_v13_apply]
  unfold outerSum
  refine Finset.sum_congr rfl fun k _ => ?_
  rw [lidx_eq, ridx_eq]
  rfl

end Cert.ReferenceIdeal.RefValue

end
-- ==== Proof.KernelOuter.lean ====
/-
  The kernel's result array is the sum of outer products.

  The grid is 4 × 4; point `(i, j)` loads columns `2048 i … 2048 i + 2047` of the scaled `v_slow`
  and columns `2048 j … 2048 j + 2047` of `u_slow` (all sixteen rows of both), multiplies the first
  block, read transposed, by the second into a zero accumulator, and stores the `2048 × 2048` product as
  tile `(i, j)` of the result. At the ideal instance the product at `(p, q)` of the tile is
  `∑ k, x[k, p] * y[k, q]`, which is entry `(2048 i + p, 2048 j + q)` of the whole array's sum of
  outer products; the sixteen tiles cover the result.
-/
import proofs.«141386_j25168508355298_1_alg».proof.Proof.Gen.KernelIdeal.Value
import proofs.«141386_j25168508355298_1_alg».proof.Proof.OuterSum
import Idealize.ShloMosaic.Lib.Pipeline.Value
import Idealize.ShloMosaic.Lib.StableHlo.Run
import Idealize.ShloMosaic.Lib.Tactic

noncomputable section

open scoped BigOperators

namespace Cert.KernelIdeal.OuterValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Idealize.ShloMosaic.Dot2 Cert.OuterSum

variable (m : (ℓ : Loc nD τ sig) → Buf (Elt Ideal) ℓ) (ρ : Dev nD → PrngReg)

theorem hz : (![0, 0] : Fin 2 → Nat) = fun _ => 0 := funext fun a => by fin_cases a <;> rfl

/-! ## One tile -/

/-- The body's product of two loaded blocks, at `(p, q)`: the sum over the sixteen rows of
    `x[k, p] * y[k, q]`. -/
theorem tile_apply (x y : FVec Ideal S16x2048 .bf16) (p q : Fin 2048) :
    k0_pay1 (F := Ideal) x y (ix2 p q) = ∑ k : Fin 16, x (ix2 k p) * y (ix2 k q) := by
  unfold k0_pay1
  simp only [shapeCast_self]
  exact matmul_zero_tm_apply _ none x y p q

/-- A tile of the whole sum of outer products: when the blocks `x`, `y` are the columns of `A`, `B`
    that the result's entry `(P, Q)` reads, the body's product at `(p, q)` is that entry. -/
theorem tile_eq (A B : FVec Ideal S16x8192 .bf16) (x y : FVec Ideal S16x2048 .bf16) (p q : Fin 2048) (P Q : Fin 8192)
    (hx : ∀ k : Fin 16, x (ix2 k p) = A (ix2 k P)) (hy : ∀ k : Fin 16, y (ix2 k q) = B (ix2 k Q)) :
    k0_pay1 (F := Ideal) x y (ix2 p q) = outerSum A B (ix2 P Q) := by
  rw [tile_apply, outerSum_ix2]
  exact Finset.sum_congr rfl fun k _ => by rw [hx k, hy k]

/-! ## The arrays the two input windows stage -/

/-- The scaled `v_slow`: row `k` of `v_slow` times the gain `0.9 + 0.0995 · 1 / (1 + exp (-eta[k]))`,
    as the host operations before the call compute it. -/
def scaledV (eta : FVec Ideal S16 .f32) (v : FVec Ideal S16x8192 .f32) : FVec Ideal S16x8192 .f32 :=
  mulf (broadcastInDim S16x8192 ![0, 1] bcast_S16x1_S16x8192_0_1 (broadcastInDim S16x1 ![0] bcast_S16_S16x1_0
    (addf (broadcastInDim S16 ![] bcast_S_S16 (constant (F := Ideal) S_ .f32 0x3F666666#32))
      (mulf (broadcastInDim S16 ![] bcast_S_S16 (constant (F := Ideal) S_ .f32 0x3DCBC6A8#32))
        (Host.divf (broadcastInDim S16 ![] bcast_S_S16 (constant (F := Ideal) S_ .f32 0x3F800000#32))
          (addf (broadcastInDim S16 ![] bcast_S_S16 (constant (F := Ideal) S_ .f32 0x3F800000#32))
            (Host.exp (Host.negf eta)))))))) v

/-- Window 0 stages the scaled `v_slow`: the narrowing to bf16 before the call is the identity on
    extended reals. -/
theorem staged0 (c : Dev nD) :
    (V m c main_v13 : S16x8192.Idx → EReal) = scaledV (m ((c : Thread nD τ).loc main_arg0)) (m ((c : Thread nD τ).loc main_arg1)) := by
  dsimp only [Gen.V, Gen.hostOps0]; after_results; rfl

/-- Window 1 stages `u_slow`, narrowed likewise. -/
theorem staged1 (c : Dev nD) :
    (V m c main_v14 : S16x8192.Idx → EReal) = m ((c : Thread nD τ).loc main_arg2) := by
  dsimp only [Gen.V, Gen.hostOps0]; after_results; rfl

/-! ## From tiles to the array -/

/-- The index maps over the sixteen grid points: both input windows take all sixteen rows; window 0's
    column block is the output's row block, window 1's the output's column block. -/
theorem idx_facts : ∀ t : Fin cfg0.N, win0_0.index t (0 : Fin 2) = 0
    ∧ win0_0.index t (1 : Fin 2) = win0_2.index t (0 : Fin 2)
    ∧ win0_1.index t (0 : Fin 2) = 0
    ∧ win0_1.index t (1 : Fin 2) = win0_2.index t (1 : Fin 2)
    ∧ win0_2.index t (0 : Fin 2) ≤ 3 ∧ win0_2.index t (1 : Fin 2) ≤ 3 :=
  (by decide +kernel : ∀ t : Fin grid0.N, _)

/-- Every tile `(a, b)` of the 4 × 4 tiling is some grid point's. -/
theorem idx_onto : ∀ (a b : Fin 4), ∃ t : Fin cfg0.N, win0_2.index t = ![a.val, b.val] :=
  (by decide +kernel : ∀ (a b : Fin 4), ∃ t : Fin grid0.N, win0_2.index t = ![a.val, b.val])

/-- What point `t` writes back is tile `t` of the sum of outer products of the two staged arrays. -/
theorem flushed_eq (c : Dev nD) (t : Fin cfg0.N) :
    (dats m 0 c).flushed 2 t = ((cfg0.win 2).blk t).view.read (Elt Ideal)
      (outerSum (K := 16) (M := 8192) (N := 8192) (V m c main_v13) (V m c main_v14)) := by
  rw [Value.flushed2]
  unfold out0_2
  rw [View.canon_unit_zero hz]
  simp only [View.ld_unit_zero (S := S16x2048) hz]
  obtain ⟨e0, e1, e2, e3, e4, e5⟩ := idx_facts t
  funext j
  obtain ⟨p, q, rfl⟩ : ∃ (p q : Fin 2048), j = ix2 p q := ⟨j 0, j 1, eq_ix2 j⟩
  have hp := p.isLt
  have hq := q.isLt
  let P : Fin 8192 := ⟨win0_2.index t (0 : Fin 2) * 2048 + p.val, by omega⟩
  let Q : Fin 8192 := ⟨win0_2.index t (1 : Fin 2) * 2048 + q.val, by omega⟩
  have hemb : ((cfg0.win 2).blk t).view.emb (ix2 p q) = ix2 P Q := by
    funext a; apply Fin.ext
    match a with
    | ⟨0, _⟩ => show win0_2.index t (0 : Fin 2) * 2048 + 1 * p.val = win0_2.index t (0 : Fin 2) * 2048 + p.val; omega
    | ⟨1, _⟩ => show win0_2.index t (1 : Fin 2) * 2048 + 1 * q.val = win0_2.index t (1 : Fin 2) * 2048 + q.val; omega
  show k0_pay1 (F := Ideal) (iblk m c 0 t) (iblk m c 1 t) (ix2 p q)
    = outerSum (K := 16) (M := 8192) (N := 8192) (V m c main_v13) (V m c main_v14) (((cfg0.win 2).blk t).view.emb (ix2 p q))
  rw [hemb]
  refine tile_eq (V m c main_v13) (V m c main_v14) (iblk m c 0 t) (iblk m c 1 t) p q P Q (fun k => ?_) (fun k => ?_)
  · show V m c main_v13 (((cfg0.win 0).blk t).view.emb (ix2 k p)) = V m c main_v13 (ix2 k P)
    congr 1
    funext a; apply Fin.ext
    match a with
    | ⟨0, _⟩ => show win0_0.index t (0 : Fin 2) * 16 + 1 * k.val = k.val; omega
    | ⟨1, _⟩ => show win0_0.index t (1 : Fin 2) * 2048 + 1 * p.val = win0_2.index t (0 : Fin 2) * 2048 + p.val; omega
  · show V m c main_v14 (((cfg0.win 1).blk t).view.emb (ix2 k q)) = V m c main_v14 (ix2 k Q)
    congr 1
    funext a; apply Fin.ext
    match a with
    | ⟨0, _⟩ => show win0_1.index t (0 : Fin 2) * 16 + 1 * k.val = k.val; omega
    | ⟨1, _⟩ => show win0_1.index t (1 : Fin 2) * 2048 + 1 * q.val = win0_2.index t (1 : Fin 2) * 2048 + q.val; omega

/-- An index of the result is in point `t`'s tile iff each coordinate is in the tile's range. -/
theorem mem_tile (t : Fin cfg0.N) (i : S8192x8192.Idx) :
    i ∈ ((cfg0.win 2).blk t).view.set ↔ ∀ a : Fin 2, win0_2.index t a * S2048x2048.size a ≤ (i a).val
      ∧ (i a).val < win0_2.index t a * S2048x2048.size a + S2048x2048.size a := by
  show i ∈ ((View.whole main_v15).slice (win0_2.rect t)).set ↔ _
  rw [View.set_slice_whole, Rect.mem_set_unit]
  exact Iff.rfl

/-- The sixteen tiles cover the result: entry `(r, s)` is in tile `(r / 2048, s / 2048)`. -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_tile]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- The result array after the run: the sum of outer products of the scaled `v_slow` with `u_slow`. -/
theorem final (c : Dev nD) : (dats m 0 c).arrAt 2 cfg0.N
    = outerSum (K := 16) (M := 8192) (N := 8192) (scaledV (m ((c : Thread nD τ).loc main_arg0)) (m ((c : Thread nD τ).loc main_arg1)))
        (m ((c : Thread nD τ).loc main_arg2)) := by
  rw [← staged0 m c, ← staged1 m c]
  exact (dats m 0 c).arrAt_eq_of_cover 2 _ (fun t _ => flushed_eq m c t) tiles_cover

/-- The kernel's run, read: the result at the sum of outer products, the arguments unchanged. -/
theorem run : θ_run defs (onTc (τ := τ) (main (F := Ideal))) ⟨m, fun _ => 0, ρ⟩ fun r => ∀ c : Dev nD,
      r.2.mem ((c : Thread nD τ).loc main_v15)
        = outerSum (K := 16) (M := 8192) (N := 8192) (scaledV (m ((c : Thread nD τ).loc main_arg0)) (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.OuterValue

end
-- ==== Proof.lean ====
/- The certificate of the slow-weight matrix `W = (γ · V)ᵀ · U`.

   Both programs first compute the sixteen gains `γ[k] = 0.9 + 0.0995 · 1 / (1 + exp (-eta[k]))` and scale
   row `k` of `v_slow` by `γ[k]`, with the same host operations and the same constants. The reference then
   contracts axis 0 of the scaled array with axis 0 of `u_slow` in one general dot product; the kernel narrows
   both operands to bf16 (the identity on extended reals) and computes the `8192 × 8192` result in sixteen
   `2048 × 2048` tiles, tile `(i, j)` being the product of column block `i` of the scaled array, read
   transposed, with column block `j` of `u_slow`, accumulated into zero. At the ideal instance both are
       W[p, q] = ∑ k : Fin 16, (γ · v)[k, p] * u[k, q]
   (Proof/OuterSum.lean): the reference by reading its dot product at an index (Proof/RefOuter.lean), the kernel
   tile by tile and then over the tiling (Proof/KernelOuter.lean). No algebraic law beyond `0 + x = x` is
   used, so the finiteness of the inputs is not needed. No operation is rewritten for the idealized reading, so `preserves` is trivial. -/
import proofs.«141386_j25168508355298_1_alg».proof.Defs
import proofs.«141386_j25168508355298_1_alg».proof.Proof.Gen.Kernel
import proofs.«141386_j25168508355298_1_alg».proof.Proof.Gen.Kernel.Skeleton
import proofs.«141386_j25168508355298_1_alg».proof.Proof.Gen.Kernel.Launch
import proofs.«141386_j25168508355298_1_alg».proof.Proof.Gen.Kernel.Points
import proofs.«141386_j25168508355298_1_alg».proof.Proof.Gen.Kernel.Frame
import proofs.«141386_j25168508355298_1_alg».proof.Proof.Gen.KernelIdeal
import proofs.«141386_j25168508355298_1_alg».proof.Proof.Gen.KernelIdeal.Skeleton
import proofs.«141386_j25168508355298_1_alg».proof.Proof.Gen.KernelIdeal.Launch
import proofs.«141386_j25168508355298_1_alg».proof.Proof.Gen.KernelIdeal.Points
import proofs.«141386_j25168508355298_1_alg».proof.Proof.Gen.KernelIdeal.Frame
import proofs.«141386_j25168508355298_1_alg».proof.Proof.Gen.ReferenceIdeal
import proofs.«141386_j25168508355298_1_alg».proof.Proof.Gen.KernelIdeal.Value
import proofs.«141386_j25168508355298_1_alg».proof.Proof.Gen.ReferenceIdeal.Run
import proofs.«141386_j25168508355298_1_alg».proof.Proof.Gen.ReferenceIdeal.Read
import proofs.«141386_j25168508355298_1_alg».proof.Proof.OuterSum
import proofs.«141386_j25168508355298_1_alg».proof.Proof.RefOuter
import proofs.«141386_j25168508355298_1_alg».proof.Proof.KernelOuter
import proofs.«141386_j25168508355298_1_alg».proof.Proof.Gen.Pre_finite_inputs
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The scaled `v_slow` is one term in both programs: the same operations on the same constants. -/
theorem scaled_eq (x0 : FVec Ideal Cert.ReferenceIdeal.S16 .f32) (x1 : FVec Ideal Cert.ReferenceIdeal.S16x8192 .f32) :
    Cert.ReferenceIdeal.Read.val_main_v12 (F := Ideal) x0 x1 = Cert.KernelIdeal.OuterValue.scaledV x0 x1 := rfl

/-- Both results are the sum of outer products of the scaled `v_slow` with `u_slow`. -/
theorem algebraic : Cert.algebraic_KernelIdeal_ReferenceIdeal := by
  intro m ρ m' ρ' _ hagree
  refine ⟨_, Cert.KernelIdeal.OuterValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_outer, scaled_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
